-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 126
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000, .f32⟩
  | .hbm, ⟨107, _⟩ => ⟨S1700000, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x64, .f32⟩
  | .hbm, ⟨117, _⟩ => ⟨S1700000x1, .f32⟩
  | .hbm, ⟨118, _⟩ => ⟨S1700000x64, .f32⟩
  | .hbm, ⟨119, _⟩ => ⟨S1700000x64, .f32⟩
  | .hbm, ⟨120, _⟩ => ⟨S_, .f32⟩
  | .hbm, ⟨121, _⟩ => ⟨S100000x64, .f32⟩
  | .hbm, ⟨122, _⟩ => ⟨S1700000x1, .i32⟩
  | .hbm, ⟨123, _⟩ => ⟨S100000x64, .f32⟩
  | .hbm, ⟨124, _⟩ => ⟨S1x64, .f32⟩
  | .hbm, ⟨125, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The four dense stages of the two-layer graph convolution, each as ONE function of whole arrays, index by index, on the
  extended reals.  A node-feature matrix has 100000 rows; a projection takes row `r` of the features against column `c`
  of the weights, `∑ k, x[r,k] · w[k,c]`; a bias stage adds the (1 × 64) bias row to every row, and the first layer then
  takes the maximum with zero.  The row-blocked kernels and the whole-array reference operations are both shown to
  compute these functions, so neither is ever compared with the other directly.
-/
import Idealize.ShloMosaic.PureOps.Ideal
import Idealize.ShloMosaic.Lib.ValueIdx

noncomputable section

namespace Cert.Gcn

open Idealize.ShloMosaic Idealize.ShloMosaic.ValueIdx

/-- Node features of the input layer, [100000, 128]. -/
abbrev SX : Shape := ⟨2, ![100000, 128]⟩
/-- Node features of the hidden and output layers, [100000, 64]. -/
abbrev SH : Shape := ⟨2, ![100000, 64]⟩
/-- First-layer weights, [128, 64]. -/
abbrev SW1 : Shape := ⟨2, ![128, 64]⟩
/-- Second-layer weights, [64, 64]. -/
abbrev SW2 : Shape := ⟨2, ![64, 64]⟩
/-- A bias as one row, [1, 64]. -/
abbrev SB : Shape := ⟨2, ![1, 64]⟩

/-- A bias as a vector, [64]. -/
abbrev SV : Shape := ⟨1, ![64]⟩

/-- A bias vector laid out as one row: entry (0, c) of the row is entry c of the vector. -/
def row (b : SV.Idx → Elt Ideal .f32) : SB.Idx → Elt Ideal .f32 :=
  fun i => b (ix1 (i 1))

/-- The first projection: entry (r, c) is the sum over the 128 input features of `x[r,k] · w[k,c]`. -/
def proj128 (x : SX.Idx → Elt Ideal .f32) (w : SW1.Idx → Elt Ideal .f32) : SH.Idx → Elt Ideal .f32 :=
  fun i => ∑ k : Fin 128, x (ix2 (i 0) k) * w (ix2 k (i 1))

/-- The second projection: entry (r, c) is the sum over the 64 hidden features of `h[r,k] · w[k,c]`. -/
def proj64 (h : SH.Idx → Elt Ideal .f32) (w : SW2.Idx → Elt Ideal .f32) : SH.Idx → Elt Ideal .f32 :=
  fun i => ∑ k : Fin 64, h (ix2 (i 0) k) * w (ix2 k (i 1))

/-- The bias row added to every row of the aggregate. -/
def bias (a : SH.Idx → Elt Ideal .f32) (b : SB.Idx → Elt Ideal .f32) : SH.Idx → Elt Ideal .f32 :=
  fun i => a i + b (ix2 0 (i 1))

/-- The bias row added to every row, then the maximum with zero (the first layer's activation). -/
def biasRelu (a : SH.Idx → Elt Ideal .f32) (b : SB.Idx → Elt Ideal .f32) : SH.Idx → Elt Ideal .f32 :=
  fun i => max (a i + b (ix2 0 (i 1))) (Ideal.ofBits .f32 0x00000000#32)

end Cert.Gcn

end
-- ==== Proof.Region0.lean ====
/-
  The first projection, row block by row block.  Grid point `t` of twenty stages rows 5000·t … 5000·t + 4999 of the node
  features and the whole weight matrix, multiplies them into a zero accumulator and writes the product back as the same
  rows of the output; the twenty blocks tile the 100000 rows, so the output array ends as the whole projection.
-/
import proofs.«125809_j9371618640103_1_alg».proof.Proof.Gen.KernelIdeal.Frame
import proofs.«125809_j9371618640103_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The product of a row block with the weights, entry by entry -/

/-- The corner every whole-block access starts at. -/
theorem corner : (![0, 0] : Fin 2 → Nat) = fun _ => 0 := funext fun a => by fin_cases a <;> rfl

/-- The left operand of entry (p, q) at contraction index k: row p. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and column k. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand of entry (p, q) at contraction index k: row k -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and column q. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores at entry (p, q) of its block: on the extended reals the narrowing to bf16 is the identity and the
    accumulator is zero, so it is the sum over the 128 features of row p of the staged rows against column q of the weights. -/
theorem product_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- A row block whose row p is row r of the features, against the whole weight matrix: entry (p, q) of the block's product is
    entry (r, q) of the projection. -/
theorem block_product (x : Vec Ideal S5000x128 .f32) (w : Vec Ideal S128x64 .f32)
    (X : SX.Idx → Elt Ideal .f32) (W : SW1.Idx → Elt Ideal .f32) (p : Fin 5000) (q : Fin 64) (r : Fin 100000)
    (hx : ∀ k : Fin 128, x (ix2 p k) = X (ix2 r k)) (hw : ∀ k : Fin 128, w (ix2 k q) = W (ix2 k q)) :
    k0_pay1 (F := Ideal) x w (ix2 p q) = proj128 X W (ix2 r q) := by
  refine (product_apply x w p q).trans ?_
  show _ = ∑ k : Fin 128, X (ix2 r k) * W (ix2 k q)
  exact Finset.sum_congr rfl fun k _ => by rw [hx k, hw k]

/-! ## Which rows a grid point stages and writes -/

/-- The index maps over the twenty points: point t takes row block t of the features and of the output, and block (0, 0),
    the whole matrix, of the weights. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- The TensorCore's buffer contents when the region is entered.
variable (V : (c : Dev nD) → (b : Ref sig .tc) → Buf (Elt Ideal) ((c : Thread nD τ).loc b))

/-- Entry (p, k) of the feature block staged at point t is entry (5000·t + p, k) of the feature array. -/
theorem features_block (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : SX.Idx → Elt Ideal .f32) (ix2 r k) := by
  obtain ⟨e0, e1, -⟩ := block_index t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block staged at any point is the whole weight matrix. -/
theorem weights_block (c : Dev nD) (t : Fin cfg0.N) (k : Fin 128) (q : Fin 64) :
    (iblk0 V c 1 t : Vec Ideal S128x64 .f32) (ix2 k q) = (V c main_arg2 : SW1.Idx → Elt Ideal .f32) (ix2 k q) := by
  obtain ⟨-, -, e2, e3, -⟩ := block_index t
  unfold iblk0
  rw [View.read_apply]
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- What point t writes back is rows 5000·t … 5000·t + 4999 of the projection of the arrays the region was entered with. -/
theorem flushed_eq (c : Dev nD) (t : Fin cfg0.N) :
    (dat0 (F := Ideal) V c).flushed 2 t
      = ((cfg0.win 2).blk t).view.read (Elt Ideal) (proj128 (V c main_arg0) (V c main_arg2)) := by
  show (cfg0.win 2).cut (grid0.coords t) ((dat0 V c).after 2 t) = _
  rw [after0_2]
  unfold out0_2
  rw [View.canon_unit_zero corner]
  simp only [View.ld_unit_zero (S := S5000x128) corner, View.ld_unit_zero (S := S128x64) corner]
  obtain ⟨-, -, -, -, e4, e5⟩ := block_index t
  refine funext fun (j : S5000x64.Idx) => ?_
  obtain ⟨p, q, rfl⟩ : ∃ (p : Fin 5000) (q : Fin 64), j = ix2 p q := ⟨j 0, j 1, eq_ix2 j⟩
  have ht : t.val < 20 := Nat.lt_of_lt_of_eq t.isLt N_0
  have hi : ((cfg0.win 2).blk t).view.emb (ix2 p q) = (ix2 (⟨t.val * 5000 + p.val, by omega⟩ : Fin 100000) q : SH.Idx) := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show k0_pay1 (F := Ideal) (iblk0 V c 0 t) (iblk0 V c 1 t) (ix2 p q) = proj128 (V c main_arg0) (V c main_arg2) (((cfg0.win 2).blk t).view.emb (ix2 p q))
  rw [hi]
  exact block_product (iblk0 V c 0 t) (iblk0 V c 1 t) (V c main_arg0) (V c main_arg2) p q ⟨t.val * 5000 + p.val, by omega⟩
    (fun k => features_block V c t p k ⟨t.val * 5000 + p.val, by omega⟩ rfl) (fun k => weights_block V c t k q)

/-! ## The twenty blocks tile the output -/

/-- An index of the output array is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Row r of the output is written by point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := block_index t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the projection of the two arrays the region was entered with. -/
theorem final (c : Dev nD) :
    (dat0 (F := Ideal) V c).arrAt 2 cfg0.N = proj128 (V c main_arg0) (V c main_arg2) :=
  (dat0 (F := Ideal) V c).arrAt_eq_of_cover 2 (proj128 (V c main_arg0) (V c main_arg2)) (fun t _ => flushed_eq V c t) covered

end Cert.KernelIdeal.Region0

end
-- ==== Proof.Region1.lean ====
/-
  The first bias stage, row block by row block.  Grid point `t` of twenty stages rows 5000·t … 5000·t + 4999 of the
  aggregate and the bias row, adds the bias row to each of them, takes the maximum with zero and writes the block back
  as the same rows of the output; the twenty blocks tile the 100000 rows.
-/
import proofs.«125809_j9371618640103_1_alg».proof.Proof.Gen.KernelIdeal.Frame
import proofs.«125809_j9371618640103_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/- The TensorCore's buffer contents when the region is entered. -/
variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-- The stored value at row `p`, column `q` of a block: the block's entry plus the bias row's entry of that column,
    then the maximum with zero. -/
theorem stored_apply (b : Vec Ideal S1x64 .f32) (a : Vec Ideal S5000x64 .f32) (p : Fin 5000) (q : Fin 64) :
    k1_pay1 (F := Ideal) b a (ix2 p q) = max (a (ix2 p q) + b (ix2 0 q)) (Ideal.ofBits .f32 0x00000000#32) := by
  unfold k1_pay1
  simp only [shapeCast_self]
  rw [maximumf_apply, addf_apply, broadcast_apply,
    broadcastTo_apply b broadcasts_S1x64_S5000x64 (ix2 p q) (ix2 0 q) (fun d => by
      match d with
      | ⟨0, _⟩ => rfl
      | ⟨1, _⟩ => rfl)]
  rfl

/-- The same at any index of the block. -/
theorem stored_at (b : Vec Ideal S1x64 .f32) (a : Vec Ideal S5000x64 .f32) (j : S5000x64.Idx) :
    k1_pay1 (F := Ideal) b a j = max (a j + b (ix2 0 (j 1))) (Ideal.ofBits .f32 0x00000000#32) := by
  obtain ⟨p, q, rfl⟩ : ∃ (p : Fin 5000) (q : Fin 64), j = ix2 p q := ⟨j 0, j 1, eq_ix2 j⟩
  exact stored_apply b a p q

/-- The index maps over the twenty points: the aggregate's and the output's blocks are row block `t`, the bias row's
    block is the whole row. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row `r` is in the block of point `r / 5000`: the twenty blocks tile the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := index_facts t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- What point `t` writes back is block `t` of `biasRelu` of the two arrays the region was entered with. -/
theorem flushed_eq (c : Dev nD) (t : Fin cfg1.N) :
    (dat1 (F := Ideal) V c).flushed 2 t
      = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := index_facts t
  funext j
  refine (stored_at (iblk1 V c 1 t) (iblk1 V c 0 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (n0 := 1) (n1 := 64) 0 (j 1))
      = ix2 (n0 := 1) (n1 := 64) 0 (((cfg1.win 2).blk t).view.emb j 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  have ha : (iblk1 V c 0 t : Vec Ideal S5000x64 .f32) j
      = (V c main_v45 : S100000x64.Idx → Elt Ideal .f32) (((cfg1.win 2).blk t).view.emb j) := by
    show (V c main_v45 : S100000x64.Idx → Elt Ideal .f32) (((cfg1.win 0).blk t).view.emb j) = _
    rw [h0]
  have hb : (iblk1 V c 1 t : Vec Ideal S1x64 .f32) (ix2 (n0 := 1) (n1 := 64) 0 (j 1))
      = (V c main_v46 : S1x64.Idx → Elt Ideal .f32) (ix2 (n0 := 1) (n1 := 64) 0 (((cfg1.win 2).blk t).view.emb j 1)) := by
    show (V c main_v46 : S1x64.Idx → Elt Ideal .f32) (((cfg1.win 1).blk t).view.emb (ix2 (n0 := 1) (n1 := 64) 0 (j 1))) = _
    rw [h1]
  rw [ha, hb]
  rfl

/-- After the region the output array is `biasRelu` of the two arrays the region was entered with. -/
theorem final (c : Dev nD) :
    (dat1 (F := Ideal) V c).arrAt 2 cfg1.N = biasRelu (V c main_v45) (V c main_v46) :=
  (dat1 V c).arrAt_eq_of_cover 2 (biasRelu (V c main_v45) (V c main_v46)) (fun t _ => flushed_eq V c t) covered

end Cert.KernelIdeal.Region1

end
-- ==== Proof.Region2.lean ====
/-
  The second projection, row block by row block.  Grid point `t` of twenty stages rows 5000·t … 5000·t + 4999 of the
  hidden features and the whole weight matrix, multiplies them into a zero accumulator and writes the product back as the
  same rows of the output; the twenty blocks tile the 100000 rows.
-/
import proofs.«125809_j9371618640103_1_alg».proof.Proof.Gen.KernelIdeal.Frame
import proofs.«125809_j9371618640103_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The product of a row block with the weights, entry by entry -/

/-- The corner every whole-block access starts at. -/
theorem corner : (![0, 0] : Fin 2 → Nat) = fun _ => 0 := funext fun a => by fin_cases a <;> rfl

/-- The left operand of entry (p, q) at contraction index k: row p. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and column k. -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand of entry (p, q) at contraction index k: row k -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and column q. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What the body stores at entry (p, q) of its block: on the extended reals the narrowing to bf16 is the identity, the
    cast of the block's shape to itself changes nothing and the accumulator is zero, so it is the sum over the 64 hidden
    features of row p of the staged rows against column q of the weights. -/
theorem product_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]
  show shapeCast S5000x64 x shapeCasts_S5000x64_S5000x64 (ix2 p k) * w (ix2 k q) = x (ix2 p k) * w (ix2 k q)
  rw [shapeCast_self]

/-- A row block whose row p is row r of the hidden features, against the whole weight matrix: entry (p, q) of the block's
    product is entry (r, q) of the projection. -/
theorem block_product (x : Vec Ideal S5000x64 .f32) (w : Vec Ideal S64x64 .f32)
    (X : SH.Idx → Elt Ideal .f32) (W : SW2.Idx → Elt Ideal .f32) (p : Fin 5000) (q : Fin 64) (r : Fin 100000)
    (hx : ∀ k : Fin 64, x (ix2 p k) = X (ix2 r k)) (hw : ∀ k : Fin 64, w (ix2 k q) = W (ix2 k q)) :
    k2_pay1 (F := Ideal) x w (ix2 p q) = proj64 X W (ix2 r q) := by
  refine (product_apply x w p q).trans ?_
  show _ = ∑ k : Fin 64, X (ix2 r k) * W (ix2 k q)
  exact Finset.sum_congr rfl fun k _ => by rw [hx k, hw k]

/-! ## Which rows a grid point stages and writes -/

/-- The index maps over the twenty points: point t takes row block t of the hidden features and of the output, and block
    (0, 0), the whole matrix, of the weights. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- The TensorCore's buffer contents when the region is entered.
variable (V : (c : Dev nD) → (b : Ref sig .tc) → Buf (Elt Ideal) ((c : Thread nD τ).loc b))

/-- Entry (p, k) of the hidden-feature block staged at point t is entry (5000·t + p, k) of the hidden-feature array. -/
theorem features_block (c : Dev nD) (t : Fin cfg2.N) (p : Fin 5000) (k : Fin 64) (r : Fin 100000)
    (hr : r.val = t.val * 5000 + p.val) :
    (iblk2 V c 0 t : Vec Ideal S5000x64 .f32) (ix2 p k) = (V c main_v47 : SH.Idx → Elt Ideal .f32) (ix2 r k) := by
  obtain ⟨e0, e1, -⟩ := block_index t
  unfold iblk2
  rw [View.read_apply]
  show V c main_v47 (((cfg2.win 0).blk t).view.emb (ix2 p k)) = V c main_v47 (ix2 r k)
  refine congrArg (V c main_v47) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The weight block staged at any point is the whole weight matrix. -/
theorem weights_block (c : Dev nD) (t : Fin cfg2.N) (k : Fin 64) (q : Fin 64) :
    (iblk2 V c 1 t : Vec Ideal S64x64 .f32) (ix2 k q) = (V c main_arg4 : SW2.Idx → Elt Ideal .f32) (ix2 k q) := by
  obtain ⟨-, -, e2, e3, -⟩ := block_index t
  unfold iblk2
  rw [View.read_apply]
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- What point t writes back is rows 5000·t … 5000·t + 4999 of the projection of the arrays the region was entered with. -/
theorem flushed_eq (c : Dev nD) (t : Fin cfg2.N) :
    (dat2 (F := Ideal) V c).flushed 2 t
      = ((cfg2.win 2).blk t).view.read (Elt Ideal) (proj64 (V c main_v47) (V c main_arg4)) := by
  show (cfg2.win 2).cut (grid2.coords t) ((dat2 V c).after 2 t) = _
  rw [after2_2]
  unfold out2_2
  rw [View.canon_unit_zero corner]
  simp only [View.ld_unit_zero (S := S5000x64) corner, View.ld_unit_zero (S := S64x64) corner]
  obtain ⟨-, -, -, -, e4, e5⟩ := block_index t
  refine funext fun (j : S5000x64.Idx) => ?_
  obtain ⟨p, q, rfl⟩ : ∃ (p : Fin 5000) (q : Fin 64), j = ix2 p q := ⟨j 0, j 1, eq_ix2 j⟩
  have ht : t.val < 20 := Nat.lt_of_lt_of_eq t.isLt N_2
  have hi : ((cfg2.win 2).blk t).view.emb (ix2 p q) = (ix2 (⟨t.val * 5000 + p.val, by omega⟩ : Fin 100000) q : SH.Idx) := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  show k2_pay1 (F := Ideal) (iblk2 V c 0 t) (iblk2 V c 1 t) (ix2 p q) = proj64 (V c main_v47) (V c main_arg4) (((cfg2.win 2).blk t).view.emb (ix2 p q))
  rw [hi]
  exact block_product (iblk2 V c 0 t) (iblk2 V c 1 t) (V c main_v47) (V c main_arg4) p q ⟨t.val * 5000 + p.val, by omega⟩
    (fun k => features_block V c t p k ⟨t.val * 5000 + p.val, by omega⟩ rfl) (fun k => weights_block V c t k q)

/-! ## The twenty blocks tile the output -/

/-- An index of the output array is in point t's block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Row r of the output is written by point r / 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := block_index t
  have e4' : win2_2.index t (0 : Fin 2) = (i 0).val / 5000 := e4
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is the projection of the two arrays the region was entered with. -/
theorem final (c : Dev nD) :
    (dat2 (F := Ideal) V c).arrAt 2 cfg2.N = proj64 (V c main_v47) (V c main_arg4) :=
  (dat2 (F := Ideal) V c).arrAt_eq_of_cover 2 (proj64 (V c main_v47) (V c main_arg4)) (fun t _ => flushed_eq V c t) covered

end Cert.KernelIdeal.Region2

end
-- ==== Proof.Region3.lean ====
/-
  The second bias stage, row block by row block.  Grid point `t` of twenty stages rows 5000·t … 5000·t + 4999 of the
  aggregate and the bias row, adds the bias row to each of them and writes the block back as the same rows of the
  output; the twenty blocks tile the 100000 rows.
-/
import proofs.«125809_j9371618640103_1_alg».proof.Proof.Gen.KernelIdeal.Frame
import proofs.«125809_j9371618640103_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/- The TensorCore's buffer contents when the region is entered. -/
variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-- The stored value at row `p`, column `q` of a block: the block's entry plus the bias row's entry of that column. -/
theorem stored_apply (b : Vec Ideal S1x64 .f32) (a : Vec Ideal S5000x64 .f32) (p : Fin 5000) (q : Fin 64) :
    k3_pay1 (F := Ideal) b a (ix2 p q) = a (ix2 p q) + b (ix2 0 q) := by
  unfold k3_pay1
  simp only [shapeCast_self]
  rw [addf_apply,
    broadcastTo_apply b broadcasts_S1x64_S5000x64 (ix2 p q) (ix2 0 q) (fun d => by
      match d with
      | ⟨0, _⟩ => rfl
      | ⟨1, _⟩ => rfl)]

/-- The same at any index of the block. -/
theorem stored_at (b : Vec Ideal S1x64 .f32) (a : Vec Ideal S5000x64 .f32) (j : S5000x64.Idx) :
    k3_pay1 (F := Ideal) b a j = a j + b (ix2 0 (j 1)) := by
  obtain ⟨p, q, rfl⟩ : ∃ (p : Fin 5000) (q : Fin 64), j = ix2 p q := ⟨j 0, j 1, eq_ix2 j⟩
  exact stored_apply b a p q

/-- The index maps over the twenty points: the aggregate's and the output's blocks are row block `t`, the bias row's
    block is the whole row. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An index of the output array is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v91).slice (win3_2.rect t)).set ↔ _
  rw [View.set_slice_whole, Rect.mem_set_unit]
  exact Iff.rfl

/-- Row `r` is in the block of point `r / 5000`: the twenty blocks tile the array. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := index_facts t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- What point `t` writes back is block `t` of `bias` of the two arrays the region was entered with. -/
theorem flushed_eq (c : Dev nD) (t : Fin cfg3.N) :
    (dat3 (F := Ideal) V c).flushed 2 t
      = ((cfg3.win 2).blk t).view.read (Elt Ideal) (bias (V c main_v89) (V c main_v90)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0, e1, e2, e3, e4, e5⟩ := index_facts t
  funext j
  refine (stored_at (iblk3 V c 1 t) (iblk3 V c 0 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (n0 := 1) (n1 := 64) 0 (j 1))
      = ix2 (n0 := 1) (n1 := 64) 0 (((cfg3.win 2).blk t).view.emb j 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  have ha : (iblk3 V c 0 t : Vec Ideal S5000x64 .f32) j
      = (V c main_v89 : S100000x64.Idx → Elt Ideal .f32) (((cfg3.win 2).blk t).view.emb j) := by
    show (V c main_v89 : S100000x64.Idx → Elt Ideal .f32) (((cfg3.win 0).blk t).view.emb j) = _
    rw [h0]
  have hb : (iblk3 V c 1 t : Vec Ideal S1x64 .f32) (ix2 (n0 := 1) (n1 := 64) 0 (j 1))
      = (V c main_v90 : S1x64.Idx → Elt Ideal .f32) (ix2 (n0 := 1) (n1 := 64) 0 (((cfg3.win 2).blk t).view.emb j 1)) := by
    show (V c main_v90 : S1x64.Idx → Elt Ideal .f32) (((cfg3.win 1).blk t).view.emb (ix2 (n0 := 1) (n1 := 64) 0 (j 1))) = _
    rw [h1]
  rw [ha, hb]
  rfl

/-- After the region the output array is `bias` of the two arrays the region was entered with. -/
theorem final (c : Dev nD) :
    (dat3 (F := Ideal) V c).arrAt 2 cfg3.N = bias (V c main_v89) (V c main_v90) :=
  (dat3 V c).arrAt_eq_of_cover 2 (bias (V c main_v89) (V c main_v90)) (fun t _ => flushed_eq V c t) covered

end Cert.KernelIdeal.Region3

end
-- ==== Proof.Agg.lean ====
/-
  The whole network as ONE function of its six inputs.  Between the dense stages both programs run the same neighbourhood
  aggregation on the host: with a self loop appended to the edge list, count each node's in-degree, scale every edge's
  message `h[src]` by `deg[src]^(-1/2) · deg[dst]^(-1/2)` and add it into row `dst`.  That aggregation is never opened here:
  it is named as a function `agg` of the edge list and of the feature matrix `h` it is applied to (once per layer: the two
  layers print the same operations under different result names, hence `agg1` and `agg2`), and both programs are shown to
  apply it to equal feature matrices.
-/
import proofs.«125809_j9371618640103_1_alg».proof.Proof.RefRead
import proofs.«125809_j9371618640103_1_alg».proof.Proof.Spec

set_option maxRecDepth 16384

noncomputable section

namespace Cert.Gcn

open Idealize.ShloMosaic Cert.ReferenceIdeal Cert.ReferenceIdeal.ReadP

/-- The edge list, [2, 1600000]: row 0 the sources, row 1 the destinations. -/
abbrev SE : Shape := ⟨2, ![2, 1600000]⟩

/-- The first layer's aggregation of a feature matrix `h` along the edges `e`: gather the source rows of `h`, scale each by
    its edge's normalisation (a function of `e` alone), scatter-add into the destination rows of a zero matrix. -/
def agg1 (e : SE.Idx → Elt Ideal .i32) (h : FVec Ideal SH .f32) : FVec Ideal SH .f32 :=
  Host.scatterAdd (F := Ideal) (φ := .f32) scatter_S100000x64_S1700000x1_S1700000x64_1_0_0_1 (val_main_v43 (F := Ideal)) (val_main_v44 (F := Ideal) e)
    (mulf (F := Ideal) (φ := .f32) (Host.gather gather_S100000x64_S1700000x1_S1700000x64_1_0_n_n_0_1_164 h (val_main_v38 (F := Ideal) e)) (val_main_v41 (F := Ideal) e))

/-- The second layer's aggregation: the same operations, under the names the second layer's lines were given. -/
def agg2 (e : SE.Idx → Elt Ideal .i32) (h : FVec Ideal SH .f32) : FVec Ideal SH .f32 :=
  Host.scatterAdd (F := Ideal) (φ := .f32) scatter_S100000x64_S1700000x1_S1700000x64_1_0_0_1 (val_main_v89 (F := Ideal)) (val_main_v90 (F := Ideal) e)
    (mulf (F := Ideal) (φ := .f32) (Host.gather gather_S100000x64_S1700000x1_S1700000x64_1_0_n_n_0_1_164 h (val_main_v84 (F := Ideal) e)) (val_main_v87 (F := Ideal) e))

/-- The two-layer network: project, aggregate, add the bias and clamp at zero; project, aggregate, add the bias. -/
def gcn (x : SX.Idx → Elt Ideal .f32) (e : SE.Idx → Elt Ideal .i32) (w1 : SW1.Idx → Elt Ideal .f32) (b1 : SV.Idx → Elt Ideal .f32)
    (w2 : SW2.Idx → Elt Ideal .f32) (b2 : SV.Idx → Elt Ideal .f32) : SH.Idx → Elt Ideal .f32 :=
  bias (agg2 e (proj64 (biasRelu (agg1 e (proj128 x w1)) (row b1)) w2)) (row b2)

/-- The reference's first aggregate is `agg1` of its first projection. -/
theorem val_main_v45_eq (x0 : SX.Idx → Elt Ideal .f32) (x1 : SE.Idx → Elt Ideal .i32) (x2 : SW1.Idx → Elt Ideal .f32) :
    val_main_v45 (F := Ideal) x0 x1 x2 = agg1 x1 (val_main_v4 (F := Ideal) x0 x2) := rfl

/-- The reference's second aggregate is `agg2` of its second projection. -/
theorem val_main_v91_eq (x0 : SX.Idx → Elt Ideal .f32) (x1 : SE.Idx → Elt Ideal .i32) (x2 : SW1.Idx → Elt Ideal .f32)
    (x3 : SV.Idx → Elt Ideal .f32) (x4 : SW2.Idx → Elt Ideal .f32) :
    val_main_v91 (F := Ideal) x0 x1 x2 x3 x4 = agg2 x1 (val_main_v50 (F := Ideal) x0 x1 x2 x3 x4) := rfl

end Cert.Gcn

end
-- ==== Proof.HostReads1.lean ====
/-
  What the first two regions and the third find in the buffers they stage, read back through the host operations that
  ran before them.  No host operation and no region writes an argument, so an argument read at any boundary is its launch
  contents; the bias row the first bias stage stages is the first bias vector laid out as one row.
-/
import proofs.«125809_j9371618640103_1_alg».proof.Proof.Gen.KernelIdeal.Frame
import proofs.«125809_j9371618640103_1_alg».proof.Proof.Agg
import proofs.«125809_j9371618640103_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads1

open Cert.KernelIdeal Cert.KernelIdeal.Gen Cert.Gcn
open Idealize.ShloMosaic Idealize.ShloMosaic.TcCoe Idealize.ShloMosaic.ValueIdx Idealize.ShloMosaic.StableHlo Idealize.SL.Sem

/-- A buffer that no operation of a stretch of host operations writes holds after the stretch what it held before it:
    the stretch's writes are listed, and each is another buffer. -/
local macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The last host operation before the first bias stage -/

/-- Whatever the buffers hold before the stretch that ends at the first bias stage, after it the bias row is the first
    bias vector as the stretch found it, cast from [64] to [1, 64]: the cast is the stretch's last operation and no
    operation of the stretch writes the vector. -/
theorem bias_row_cast (U : Valuation τ sig (Elt Ideal)) :
    StableHlo.after hostOps1_2 U (Proc.devRef .tc main_v46)
      = shapeCast S1x64 (U (Proc.devRef .tc main_arg3)) shapeCasts_S64_S1x64 := by
  after_results_simp <;> rfl

/-- A vector of 64 entries cast to one row of 64 is the vector laid out as that row. -/
theorem cast_eq_row (b : SV.Idx → Elt Ideal .f32) : shapeCast S1x64 b shapeCasts_S64_S1x64 = row b := by
  funext i
  obtain ⟨u, j, rfl⟩ : ∃ (u : Fin 1) (j : Fin 64), i = ix2 u j := ⟨i 0, i 1, eq_ix2 i⟩
  exact shapeCast_a_1a_apply b shapeCasts_S64_S1x64 u j

/- The launch memory and the generator registers. -/
variable (m : (ℓ : Loc nD τ sig) → Buf (Elt Ideal) ℓ) (ρ : Dev nD → PrngReg)

/-! ## The arguments, walked back to the launch -/

/-- The first projection finds the node features as launched. -/
theorem V1_arg0 (c : Dev nD) : V1 m ρ c main_arg0 = m ((c : Thread nD τ).loc main_arg0) :=
  calc V1 m ρ c main_arg0
    _ = W0 m ρ c (Proc.devRef .tc main_arg0) := by unwritten_by hostOps0
    _ = m ((c : Thread nD τ).loc main_arg0) := rfl

/-- The first projection finds the first-layer weights as launched. -/
theorem V1_arg2 (c : Dev nD) : V1 m ρ c main_arg2 = m ((c : Thread nD τ).loc main_arg2) :=
  calc V1 m ρ c main_arg2
    _ = W0 m ρ c (Proc.devRef .tc main_arg2) := by unwritten_by hostOps0
    _ = m ((c : Thread nD τ).loc main_arg2) := rfl

/-- Two stretches before the first bias stage the first bias vector is still as launched: the first projection neither
    stages nor writes it and no host operation writes it. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by unwritten_by hostOps1_1
    _ = W2 m ρ c (Proc.devRef .tc main_arg3) := by unwritten_by hostOps1
    _ = W1 m ρ c (Proc.devRef .tc main_arg3) := W2_of_ne m ρ c main_arg3 (by decide)
    _ = W0 m ρ c (Proc.devRef .tc main_arg3) := by unwritten_by hostOps0
    _ = m ((c : Thread nD τ).loc main_arg3) := rfl

/-- The first bias stage finds, as its bias row, the launched first bias laid out as one row. -/
theorem V5_v46 (c : Dev nD) : V5 m ρ c main_v46 = row (m ((c : Thread nD τ).loc main_arg3)) :=
  calc V5 m ρ c main_v46
    _ = shapeCast S1x64 (W4 m ρ c (Proc.devRef .tc main_arg3)) shapeCasts_S64_S1x64 := bias_row_cast (W4 m ρ c)
    _ = shapeCast S1x64 (m ((c : Thread nD τ).loc main_arg3)) shapeCasts_S64_S1x64 :=
        congrArg (fun b => shapeCast S1x64 b shapeCasts_S64_S1x64) (W4_arg3 m ρ c)
    _ = row (m ((c : Thread nD τ).loc main_arg3)) := cast_eq_row _

/-- The second projection finds the second-layer weights as launched: neither earlier region stages or writes them and
    no host operation writes them. -/
theorem V6_arg4 (c : Dev nD) : V6 m ρ c main_arg4 = m ((c : Thread nD τ).loc main_arg4) :=
  calc V6 m ρ c main_arg4
    _ = W5 m ρ c (Proc.devRef .tc main_arg4) := W6_of_ne m ρ c main_arg4 (by decide)
    _ = W4 m ρ c (Proc.devRef .tc main_arg4) := by unwritten_by hostOps1_2
    _ = W3 m ρ c (Proc.devRef .tc main_arg4) := by unwritten_by hostOps1_1
    _ = W2 m ρ c (Proc.devRef .tc main_arg4) := by unwritten_by hostOps1
    _ = W1 m ρ c (Proc.devRef .tc main_arg4) := W2_of_ne m ρ c main_arg4 (by decide)
    _ = W0 m ρ c (Proc.devRef .tc main_arg4) := by unwritten_by hostOps0
    _ = m ((c : Thread nD τ).loc main_arg4) := rfl

end Cert.KernelIdeal.HostReads1

end
-- ==== Proof.HostReads2.lean ====
/-
  What the last region finds as its bias row, read back through every host operation and region that ran before it: none
  writes the second bias vector, and the row is that vector laid out as one row.
-/
import proofs.«125809_j9371618640103_1_alg».proof.Proof.Gen.KernelIdeal.Frame
import proofs.«125809_j9371618640103_1_alg».proof.Proof.Agg
import proofs.«125809_j9371618640103_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads2

open Cert.KernelIdeal Cert.KernelIdeal.Gen Cert.Gcn
open Idealize.ShloMosaic Idealize.ShloMosaic.TcCoe Idealize.ShloMosaic.ValueIdx Idealize.ShloMosaic.StableHlo Idealize.SL.Sem

/-- A buffer that no operation of a stretch of host operations writes holds after the stretch what it held before it:
    the stretch's writes are listed, and each is another buffer. -/
local macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The last host operation before the second bias stage -/

/-- Whatever the buffers hold before the stretch that ends at the second bias stage, after it the bias row is the second
    bias vector as the stretch found it, cast from [64] to [1, 64]: the cast is the stretch's last operation and no
    operation of the stretch writes the vector. -/
theorem bias_row_cast (U : Valuation τ sig (Elt Ideal)) :
    StableHlo.after hostOps3_2 U (Proc.devRef .tc main_v90)
      = shapeCast S1x64 (U (Proc.devRef .tc main_arg5)) shapeCasts_S64_S1x64 := by
  after_results_simp <;> rfl

/-- A vector of 64 entries cast to one row of 64 is the vector laid out as that row. -/
theorem cast_eq_row (b : SV.Idx → Elt Ideal .f32) : shapeCast S1x64 b shapeCasts_S64_S1x64 = row b := by
  funext i
  obtain ⟨u, j, rfl⟩ : ∃ (u : Fin 1) (j : Fin 64), i = ix2 u j := ⟨i 0, i 1, eq_ix2 i⟩
  exact shapeCast_a_1a_apply b shapeCasts_S64_S1x64 u j

/- The launch memory and the generator registers. -/
variable (m : (ℓ : Loc nD τ sig) → Buf (Elt Ideal) ℓ) (ρ : Dev nD → PrngReg)

/-! ## The second bias vector, walked back to the launch -/

/-- When the second projection is entered the second bias vector is still as launched: neither earlier region stages or
    writes it and no host operation writes it. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by unwritten_by hostOps1_2
    _ = W3 m ρ c (Proc.devRef .tc main_arg5) := by unwritten_by hostOps1_1
    _ = W2 m ρ c (Proc.devRef .tc main_arg5) := by unwritten_by hostOps1
    _ = W1 m ρ c (Proc.devRef .tc main_arg5) := W2_of_ne m ρ c main_arg5 (by decide)
    _ = W0 m ρ c (Proc.devRef .tc main_arg5) := by unwritten_by hostOps0
    _ = m ((c : Thread nD τ).loc main_arg5) := rfl

/-- Two stretches before the second bias stage it is as launched still: the second projection neither stages nor writes
    it either. -/
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := by unwritten_by hostOps3_1
    _ = W7 m ρ c (Proc.devRef .tc main_arg5) := by unwritten_by hostOps3
    _ = W6 m ρ c (Proc.devRef .tc main_arg5) := W7_of_ne m ρ c main_arg5 (by decide)
    _ = m ((c : Thread nD τ).loc main_arg5) := W6_arg5 m ρ c

/-- The second bias stage finds, as its bias row, the launched second bias laid out as one row. -/
theorem V10_v90 (c : Dev nD) : V10 m ρ c main_v90 = row (m ((c : Thread nD τ).loc main_arg5)) :=
  calc V10 m ρ c main_v90
    _ = shapeCast S1x64 (W9 m ρ c (Proc.devRef .tc main_arg5)) shapeCasts_S64_S1x64 := bias_row_cast (W9 m ρ c)
    _ = shapeCast S1x64 (m ((c : Thread nD τ).loc main_arg5)) shapeCasts_S64_S1x64 :=
        congrArg (fun b => shapeCast S1x64 b shapeCasts_S64_S1x64) (W9_arg5 m ρ c)
    _ = row (m ((c : Thread nD τ).loc main_arg5)) := cast_eq_row _

end Cert.KernelIdeal.HostReads2

end
-- ==== Proof.AggRead1.lean ====
/-
  The aggregate the first bias stage stages, read back through the host operations between the first two regions: it is
  the host's aggregation (the function `agg1`, never opened) of the launched edge list — whose two rows were sliced out
  before the first region, which does not write them — and of what the first projection left.
-/
import proofs.«125809_j9371618640103_1_alg».proof.Proof.Gen.KernelIdeal.Frame
import proofs.«125809_j9371618640103_1_alg».proof.Proof.Agg
import proofs.«125809_j9371618640103_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.AggRead1

open Cert.KernelIdeal Cert.KernelIdeal.Gen Cert.Gcn
open Idealize.ShloMosaic Idealize.ShloMosaic.TcCoe Idealize.ShloMosaic.ValueIdx Idealize.ShloMosaic.StableHlo Idealize.SL.Sem

/- The launch memory and the generator registers. -/
variable (m : (ℓ : Loc nD τ sig) → Buf (Elt Ideal) ℓ) (ρ : Dev nD → PrngReg)

/-! ## The two rows of the edge list

They are sliced out of the launched edge list before the first region, which stages neither. -/

/-- The source row, after the slices. -/
theorem src_W1 (c : Dev nD) : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  after_results_simp
  rfl

/-- The destination row, after the slices. -/
theorem dst_W1 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

/-- The source row when the first region has run. -/
theorem src_W2 (c : Dev nD) : W2 m ρ c (Proc.devRef .tc main_v1) = Cert.ReferenceIdeal.ReadP.val_main_v1 (F := Ideal) (m ((c : Thread nD τ).loc main_arg1)) :=
  (W2_of_ne m ρ c main_v1 (by decide)).trans (src_W1 m ρ c)

/-- The destination row when the first region has run. -/
theorem dst_W2 (c : Dev nD) : W2 m ρ c (Proc.devRef .tc main_v3) = Cert.ReferenceIdeal.ReadP.val_main_v3 (F := Ideal) (m ((c : Thread nD τ).loc main_arg1)) :=
  (W2_of_ne m ρ c main_v3 (by decide)).trans (dst_W1 m ρ c)

/-! ## After the degree count (the first host stretch between the regions)

Each row gets the self loops appended; the in-degree of every node is counted along the destinations; `deg > 0` and
`rsqrt (max deg 1)` are kept for the normalisation. -/

/-- Sources with the self loops appended. -/
theorem srcLoop_W3 (c : Dev nD) : W3 m ρ c (Proc.devRef .tc main_v6) = Cert.ReferenceIdeal.ReadP.val_main_v6 (F := Ideal) (m ((c : Thread nD τ).loc main_arg1)) := by
  have h1 := src_W2 m ρ c
  show StableHlo.after hostOps1 (W2 m ρ c) (Proc.devRef .tc main_v6) = _
  generalize W2 m ρ c = W at h1 ⊢
  after_results
  rw [h1]
  rfl

/-- Destinations with the self loops appended. -/
theorem dstLoop_W3 (c : Dev nD) : W3 m ρ c (Proc.devRef .tc main_v7) = Cert.ReferenceIdeal.ReadP.val_main_v7 (F := Ideal) (m ((c : Thread nD τ).loc main_arg1)) := by
  have h3 := dst_W2 m ρ c
  show StableHlo.after hostOps1 (W2 m ρ c) (Proc.devRef .tc main_v7) = _
  generalize W2 m ρ c = W at h3 ⊢
  after_results
  rw [h3]
  rfl

/-- Which nodes have positive degree. -/
theorem degPos_W3 (c : Dev nD) : W3 m ρ c (Proc.devRef .tc main_v13) = Cert.ReferenceIdeal.ReadP.val_main_v13 (F := Ideal) (m ((c : Thread nD τ).loc main_arg1)) := by
  have h3 := dst_W2 m ρ c
  show StableHlo.after hostOps1 (W2 m ρ c) (Proc.devRef .tc main_v13) = _
  generalize W2 m ρ c = W at h3 ⊢
  after_results
  rw [h3]
  rfl

/-- The inverse square root of the degree clamped below at one. -/
theorem degRsqrt_W3 (c : Dev nD) : W3 m ρ c (Proc.devRef .tc main_v16) = Cert.ReferenceIdeal.ReadP.val_main_v16 (F := Ideal) (m ((c : Thread nD τ).loc main_arg1)) := by
  have h3 := dst_W2 m ρ c
  show StableHlo.after hostOps1 (W2 m ρ c) (Proc.devRef .tc main_v16) = _
  generalize W2 m ρ c = W at h3 ⊢
  after_results
  rw [h3]
  rfl

/-- The zero the normalisation falls back to. -/
theorem zero_W3 (c : Dev nD) : W3 m ρ c (Proc.devRef .tc main_cst_3) = Cert.ReferenceIdeal.ReadP.val_main_cst_3 (F := Ideal) := by
  show StableHlo.after hostOps1 (W2 m ρ c) (Proc.devRef .tc main_cst_3) = _
  generalize W2 m ρ c = W
  after_results_simp
  rfl

/-- The first projection's output is not written by the degree count. -/
theorem proj_W3 (c : Dev nD) : W3 m ρ c (Proc.devRef .tc main_v4) = W2 m ρ c (Proc.devRef .tc main_v4) := by
  show StableHlo.after hostOps1 (W2 m ρ c) (Proc.devRef .tc main_v4) = _
  generalize W2 m ρ c = W
  after_results_simp

/-! ## After the select (the second stretch): `deg^(-1/2)` where the degree is positive, zero elsewhere -/

/-- The per-node normalisation factor. -/
theorem dinv_W4 (c : Dev nD) : W4 m ρ c (Proc.devRef .tc main_v17) = Cert.ReferenceIdeal.ReadP.val_main_v17 (F := Ideal) (m ((c : Thread nD τ).loc main_arg1)) := by
  have h13 := degPos_W3 m ρ c
  have h16 := degRsqrt_W3 m ρ c
  have h0 := zero_W3 m ρ c
  show StableHlo.after hostOps1_1 (W3 m ρ c) (Proc.devRef .tc main_v17) = _
  generalize W3 m ρ c = W at h13 h16 h0 ⊢
  after_results_simp
  try simp only [TRef.ofBuf, TRef.toBuf, cast_eq]
  rw [h13, h16, h0]
  rfl

/-- The select writes none of the appended rows nor the projection's output. -/
theorem srcLoop_W4 (c : Dev nD) : W4 m ρ c (Proc.devRef .tc main_v6) = Cert.ReferenceIdeal.ReadP.val_main_v6 (F := Ideal) (m ((c : Thread nD τ).loc main_arg1)) := by
  refine Eq.trans ?_ (srcLoop_W3 m ρ c)
  show StableHlo.after hostOps1_1 (W3 m ρ c) (Proc.devRef .tc main_v6) = _
  generalize W3 m ρ c = W
  after_results_simp

theorem dstLoop_W4 (c : Dev nD) : W4 m ρ c (Proc.devRef .tc main_v7) = Cert.ReferenceIdeal.ReadP.val_main_v7 (F := Ideal) (m ((c : Thread nD τ).loc main_arg1)) := by
  refine Eq.trans ?_ (dstLoop_W3 m ρ c)
  show StableHlo.after hostOps1_1 (W3 m ρ c) (Proc.devRef .tc main_v7) = _
  generalize W3 m ρ c = W
  after_results_simp

theorem proj_W4 (c : Dev nD) : W4 m ρ c (Proc.devRef .tc main_v4) = W2 m ρ c (Proc.devRef .tc main_v4) := by
  refine Eq.trans ?_ (proj_W3 m ρ c)
  show StableHlo.after hostOps1_1 (W3 m ρ c) (Proc.devRef .tc main_v4) = _
  generalize W3 m ρ c = W
  after_results_simp

/-! ## After the gather, the scaling and the scatter-add (the third stretch) -/

/-- The first bias stage finds, as its aggregate, `agg1` of the launched edge list and of what the first projection left. -/
theorem V5_v45 (c : Dev nD) :
    V5 m ρ c main_v45 = agg1 (m ((c : Thread nD τ).loc main_arg1)) (W2 m ρ c (Proc.devRef .tc main_v4)) := by
  have h6 := srcLoop_W4 m ρ c
  have h7 := dstLoop_W4 m ρ c
  have h17 := dinv_W4 m ρ c
  have h4 := proj_W4 m ρ c
  show StableHlo.after hostOps1_2 (W4 m ρ c) (Proc.devRef .tc main_v45) = _
  generalize W2 m ρ c (Proc.devRef .tc main_v4) = h at h4 ⊢
  generalize W4 m ρ c = W at h6 h7 h17 h4 ⊢
  after_results_simp
  rw [h6, h7, h17, h4]
  rfl

end Cert.KernelIdeal.AggRead1

end
-- ==== Proof.AggRead2.lean ====
/-
  The aggregate the last region stages, read back through the host operations before it: it is the host's second
  aggregation (the function `agg2`, never opened) of the launched edge list — whose two rows were sliced out before the
  first region and are written by nothing afterwards — and of what the second projection left.
-/
import proofs.«125809_j9371618640103_1_alg».proof.Proof.Gen.KernelIdeal.Frame
import proofs.«125809_j9371618640103_1_alg».proof.Proof.Agg
import proofs.«125809_j9371618640103_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.AggRead2

open Cert.KernelIdeal Cert.KernelIdeal.Gen Cert.Gcn
open Idealize.ShloMosaic Idealize.ShloMosaic.TcCoe Idealize.ShloMosaic.ValueIdx Idealize.ShloMosaic.StableHlo Idealize.SL.Sem
open Cert.ReferenceIdeal.ReadP

/-- A buffer that no operation of a stretch of host operations writes holds after the stretch what it held before it:
    the stretch's writes are listed, and each is another buffer. -/
local macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/- The launch memory and the generator registers. -/
variable (m : (ℓ : Loc nD τ sig) → Buf (Elt Ideal) ℓ) (ρ : Dev nD → PrngReg)

/-! ## The two rows of the edge list, from the launch to the second projection's exit -/

/-- Before the first region the sources are row 0 of the launched edge list, flattened. -/
theorem sources_W1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- Before the first region the destinations are row 1 of the launched edge list, flattened. -/
theorem targets_W1 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- No region stages or writes the sources and no later host operation writes them: after the second projection they are
    still row 0 of the launched edge list. -/
theorem sources_W7 (c : Dev nD) : W7 m ρ c (Proc.devRef .tc main_v1) = val_main_v1 (F := Ideal) (m ((c : Thread nD τ).loc main_arg1)) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by unwritten_by hostOps1_2
    _ = W3 m ρ c (Proc.devRef .tc main_v1) := by unwritten_by hostOps1_1
    _ = W2 m ρ c (Proc.devRef .tc main_v1) := by unwritten_by hostOps1
    _ = W1 m ρ c (Proc.devRef .tc main_v1) := W2_of_ne m ρ c main_v1 (by decide)
    _ = val_main_v1 (F := Ideal) (m ((c : Thread nD τ).loc main_arg1)) := sources_W1 m ρ c

/-- Nor the destinations: after the second projection they are still row 1 of the launched edge list. -/
theorem targets_W7 (c : Dev nD) : W7 m ρ c (Proc.devRef .tc main_v3) = val_main_v3 (F := Ideal) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by unwritten_by hostOps1_2
    _ = W3 m ρ c (Proc.devRef .tc main_v3) := by unwritten_by hostOps1_1
    _ = W2 m ρ c (Proc.devRef .tc main_v3) := by unwritten_by hostOps1
    _ = W1 m ρ c (Proc.devRef .tc main_v3) := W2_of_ne m ρ c main_v3 (by decide)
    _ = val_main_v3 (F := Ideal) (m ((c : Thread nD τ).loc main_arg1)) := targets_W1 m ρ c

/-! ## The first stretch after the second projection: self loops appended, the in-degrees counted -/

/-- The sources with a self loop per node appended. -/
theorem loop_sources_W8 (c : Dev nD) : W8 m ρ c (Proc.devRef .tc main_v50) = val_main_v52 (F := Ideal) (m ((c : Thread nD τ).loc main_arg1)) := by
  have h1 := sources_W7 m ρ c
  show StableHlo.after hostOps3 (W7 m ρ c) (Proc.devRef .tc main_v50) = _
  generalize W7 m ρ c = W at h1 ⊢
  after_results
  rw [h1]
  rfl

/-- The destinations with a self loop per node appended. -/
theorem loop_targets_W8 (c : Dev nD) : W8 m ρ c (Proc.devRef .tc main_v51) = val_main_v53 (F := Ideal) (m ((c : Thread nD τ).loc main_arg1)) := by
  have h3 := targets_W7 m ρ c
  show StableHlo.after hostOps3 (W7 m ρ c) (Proc.devRef .tc main_v51) = _
  generalize W7 m ρ c = W at h3 ⊢
  after_results
  rw [h3]
  rfl

/-- Which nodes have a positive in-degree. -/
theorem positive_W8 (c : Dev nD) : W8 m ρ c (Proc.devRef .tc main_v57) = val_main_v59 (F := Ideal) (m ((c : Thread nD τ).loc main_arg1)) := by
  have h3 := targets_W7 m ρ c
  show StableHlo.after hostOps3 (W7 m ρ c) (Proc.devRef .tc main_v57) = _
  generalize W7 m ρ c = W at h3 ⊢
  after_results
  rw [h3]
  rfl

/-- The reciprocal square root of each in-degree, the degree taken as at least one. -/
theorem rsqrt_W8 (c : Dev nD) : W8 m ρ c (Proc.devRef .tc main_v60) = val_main_v62 (F := Ideal) (m ((c : Thread nD τ).loc main_arg1)) := by
  have h3 := targets_W7 m ρ c
  show StableHlo.after hostOps3 (W7 m ρ c) (Proc.devRef .tc main_v60) = _
  generalize W7 m ρ c = W at h3 ⊢
  after_results
  rw [h3]
  rfl

/-- The zero the normalisation falls back to. -/
theorem zero_W8 (c : Dev nD) : W8 m ρ c (Proc.devRef .tc main_cst_14) = val_main_cst_14 (F := Ideal) := by
  show StableHlo.after hostOps3 (W7 m ρ c) (Proc.devRef .tc main_cst_14) = _
  generalize W7 m ρ c = W
  after_results
  rfl

/-- The stretch does not write what the second projection left. -/
theorem projected_W8 (c : Dev nD) : W8 m ρ c (Proc.devRef .tc main_v48) = W7 m ρ c (Proc.devRef .tc main_v48) := by
  unwritten_by hostOps3

/-! ## The second stretch: the normalisation, zero where a node has no in-edge -/

/-- Each node's normalisation: the reciprocal square root of its in-degree where that is positive, zero elsewhere. -/
theorem norm_W9 (c : Dev nD) : W9 m ρ c (Proc.devRef .tc main_v61) = val_main_v63 (F := Ideal) (m ((c : Thread nD τ).loc main_arg1)) := by
  have hp := positive_W8 m ρ c
  have hr := rsqrt_W8 m ρ c
  have hz := zero_W8 m ρ c
  show StableHlo.after hostOps3_1 (W8 m ρ c) (Proc.devRef .tc main_v61) = _
  generalize W8 m ρ c = W at hp hr hz ⊢
  after_results_simp
  simp only [TRef.ofBuf, TRef.toBuf, cast_eq]
  rw [hp, hr, hz]
  rfl

/-- The stretch writes neither edge row with its self loops, nor what the second projection left. -/
theorem loop_sources_W9 (c : Dev nD) : W9 m ρ c (Proc.devRef .tc main_v50) = val_main_v52 (F := Ideal) (m ((c : Thread nD τ).loc main_arg1)) :=
  calc W9 m ρ c (Proc.devRef .tc main_v50)
    _ = W8 m ρ c (Proc.devRef .tc main_v50) := by unwritten_by hostOps3_1
    _ = val_main_v52 (F := Ideal) (m ((c : Thread nD τ).loc main_arg1)) := loop_sources_W8 m ρ c
theorem loop_targets_W9 (c : Dev nD) : W9 m ρ c (Proc.devRef .tc main_v51) = val_main_v53 (F := Ideal) (m ((c : Thread nD τ).loc main_arg1)) :=
  calc W9 m ρ c (Proc.devRef .tc main_v51)
    _ = W8 m ρ c (Proc.devRef .tc main_v51) := by unwritten_by hostOps3_1
    _ = val_main_v53 (F := Ideal) (m ((c : Thread nD τ).loc main_arg1)) := loop_targets_W8 m ρ c
theorem projected_W9 (c : Dev nD) : W9 m ρ c (Proc.devRef .tc main_v48) = W7 m ρ c (Proc.devRef .tc main_v48) :=
  calc W9 m ρ c (Proc.devRef .tc main_v48)
    _ = W8 m ρ c (Proc.devRef .tc main_v48) := by unwritten_by hostOps3_1
    _ = W7 m ρ c (Proc.devRef .tc main_v48) := projected_W8 m ρ c

/-! ## The third stretch: gather the source rows, scale each edge's message, add into the destination rows -/

/-- The second bias stage finds, as its aggregate, `agg2` of the launched edge list and of what the second projection left. -/
theorem V10_v89 (c : Dev nD) :
    V10 m ρ c main_v89 = agg2 (m ((c : Thread nD τ).loc main_arg1)) (W7 m ρ c (Proc.devRef .tc main_v48)) := by
  have hs := loop_sources_W9 m ρ c
  have ht := loop_targets_W9 m ρ c
  have hn := norm_W9 m ρ c
  have hh := projected_W9 m ρ c
  show StableHlo.after hostOps3_2 (W9 m ρ c) (Proc.devRef .tc main_v89) = _
  generalize W9 m ρ c = W at hs ht hn hh ⊢
  after_results_simp
  rw [hs, ht, hn, hh]
  rfl

end Cert.KernelIdeal.AggRead2

end
-- ==== Proof.KernelValue.lean ====
/-
  What the kernel program's result buffer holds after the run, as the network `gcn` of the launch arguments.  The last
  region leaves `bias` of what it staged; what it staged is the second aggregation of what the second projection left
  and the second bias as a row; the second projection staged what the first bias stage left and the launched weights;
  and so on back to the first projection of the launched features and weights.  Each step is one region's value read at
  the contents it was entered with, and the contents are read back through the host operations between the regions.
-/
import proofs.«125809_j9371618640103_1_alg».proof.Proof.Gen.KernelIdeal.Frame
import proofs.«125809_j9371618640103_1_alg».proof.Proof.Region0
import proofs.«125809_j9371618640103_1_alg».proof.Proof.Region1
import proofs.«125809_j9371618640103_1_alg».proof.Proof.Region2
import proofs.«125809_j9371618640103_1_alg».proof.Proof.Region3
import proofs.«125809_j9371618640103_1_alg».proof.Proof.HostReads1
import proofs.«125809_j9371618640103_1_alg».proof.Proof.HostReads2
import proofs.«125809_j9371618640103_1_alg».proof.Proof.AggRead1
import proofs.«125809_j9371618640103_1_alg».proof.Proof.AggRead2
import proofs.«125809_j9371618640103_1_alg».proof.Proof.Agg
import proofs.«125809_j9371618640103_1_alg».proof.Proof.Spec

set_option maxRecDepth 16384

noncomputable section

namespace Cert.KernelIdeal.Value

open Cert.KernelIdeal Cert.KernelIdeal.Gen Cert.Gcn
open Idealize.ShloMosaic Idealize.ShloMosaic.TcCoe Idealize.SL.Sem

/- The launch memory and the generator registers. -/
variable (m : (ℓ : Loc nD τ sig) → Buf (Elt Ideal) ℓ) (ρ : Dev nD → PrngReg)

/-- After the first region its output array is the first projection of the launched features and weights. -/
theorem first_projection (c : Dev nD) :
    W2 m ρ c (Proc.devRef .tc main_v4)
      = proj128 (m ((c : Thread nD τ).loc main_arg0)) (m ((c : Thread nD τ).loc main_arg2)) := by
  refine (W2_arr m ρ c 2).trans ?_
  rw [Region0.final (V1 m ρ) c, HostReads1.V1_arg0 m ρ c, HostReads1.V1_arg2 m ρ c]

/-- After the second region its output array is the first layer's activation. -/
theorem first_layer (c : Dev nD) :
    W6 m ρ c (Proc.devRef .tc main_v47)
      = biasRelu (agg1 (m ((c : Thread nD τ).loc main_arg1))
          (proj128 (m ((c : Thread nD τ).loc main_arg0)) (m ((c : Thread nD τ).loc main_arg2))))
          (row (m ((c : Thread nD τ).loc main_arg3))) := by
  refine (W6_arr m ρ c 2).trans ?_
  rw [Region1.final (V5 m ρ) c, AggRead1.V5_v45 m ρ c, HostReads1.V5_v46 m ρ c, first_projection m ρ c]

/-- After the third region its output array is the second projection of the first layer's activation. -/
theorem second_projection (c : Dev nD) :
    W7 m ρ c (Proc.devRef .tc main_v48)
      = proj64 (biasRelu (agg1 (m ((c : Thread nD τ).loc main_arg1))
          (proj128 (m ((c : Thread nD τ).loc main_arg0)) (m ((c : Thread nD τ).loc main_arg2))))
          (row (m ((c : Thread nD τ).loc main_arg3)))) (m ((c : Thread nD τ).loc main_arg4)) := by
  refine (W7_arr m ρ c 2).trans ?_
  rw [Region2.final (V6 m ρ) c, HostReads1.V6_arg4 m ρ c]
  exact congrArg (fun h => proj64 h (m ((c : Thread nD τ).loc main_arg4))) (first_layer m ρ c)

/-- After the run the result buffer holds the network of the launch arguments. -/
theorem result (c : Dev nD) :
    W11 m ρ c (Proc.devRef .tc main_v91)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W11_arr m ρ c 2).trans ?_
  rw [Region3.final (V10 m ρ) c, AggRead2.V10_v89 m ρ c, HostReads2.V10_v90 m ρ c, second_projection m ρ c]
  rfl

end Cert.KernelIdeal.Value

end
-- ==== Proof.RefSpec.lean ====
/-
  The reference's dense operations are the four stage functions.  Its two `dot_general`s, read at an index, are the sums
  `∑ k, l[r,k] · w[k,c]`; its bias is added through two broadcasts ([64] → [1,64] → [100000,64]), which at an index (r, c)
  read entry c of the bias vector, as the one-row layout `row` does; its activation is the maximum with a broadcast zero.
  With the aggregation carried as the opaque function `agg`, the reference's whole result is the network `gcn`.
-/
import proofs.«125809_j9371618640103_1_alg».proof.Proof.RefRead
import proofs.«125809_j9371618640103_1_alg».proof.Proof.Agg
import proofs.«125809_j9371618640103_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Spec

open Cert.ReferenceIdeal Cert.ReferenceIdeal.ReadP Cert.Gcn
open Idealize.ShloMosaic Idealize.ShloMosaic.ValueIdx

/-- The first `dot_general` is the first projection. -/
theorem dot128_spec (x : SX.Idx → Elt Ideal .f32) (w : SW1.Idx → Elt Ideal .f32) :
    val_main_v4 (F := Ideal) x w = proj128 x w := by
  funext i
  rw [val_main_v4_apply]
  unfold proj128
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  rw [el, er]
  rfl

/-- The second `dot_general`, of any hidden features, is the second projection. -/
theorem dot64_spec (h : SH.Idx → Elt Ideal .f32) (w : SW2.Idx → Elt Ideal .f32) :
    Host.dotGeneral (F := Ideal) (φ₁ := .f32) (φ₂ := .f32) dot_S100000x64_S64x64_S100000x64_1_0_0_1_n_n none h w = proj64 h w := by
  funext i
  simp only [Host.dotGeneral]
  rw [Ideal.dotGeneral_apply, ← Equiv.sum_comp (ValueIdx.contrEquiv1 dot_S100000x64_S64x64_S100000x64_1_0_0_1_n_n 64 rfl rfl).symm]
  unfold proj64
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (i 0) k :=
    funext fun a => Fin.ext (by
      match a with
      | ⟨0, _⟩ => exact lhs_main_v50_0 _ _
      | ⟨1, _⟩ => exact (lhs_main_v50_1 _ _).trans hk)
  have er : dot_S100000x64_S64x64_S100000x64_1_0_0_1_n_n.rhsIdx i ((ValueIdx.contrEquiv1 dot_S100000x64_S64x64_S100000x64_1_0_0_1_n_n 64 rfl rfl).symm k) = ix2 k (i 1) :=
    funext fun a => Fin.ext (by
      match a with
      | ⟨0, _⟩ => exact (rhs_main_v50_0 _ _).trans hk
      | ⟨1, _⟩ => exact rhs_main_v50_1 _ _)
  rw [el, er]
  rfl

/-- Adding the twice-broadcast bias and clamping at a broadcast zero is `biasRelu` with the bias as a row. -/
theorem biasRelu_spec (a : SH.Idx → Elt Ideal .f32) (b : SV.Idx → Elt Ideal .f32) :
    maximumf (F := Ideal) (s := SH) (φ := .f32) (addf (F := Ideal) (s := SH) (φ := .f32) a (val_main_v47 (F := Ideal) b))
      (val_main_call1_v0 (F := Ideal)) = biasRelu a (row b) := by
  funext i
  rw [maximumf_apply, addf_apply, val_main_v47_apply, val_main_v46_apply, val_main_call1_v0_apply,
    val_main_call1_cst_apply]
  have e : idx_main_v46 (idx_main_v47 i) = ix1 (i 1) :=
    funext fun a => Fin.ext (by match a with | ⟨0, _⟩ => rfl)
  rw [e]
  rfl

/-- Adding the twice-broadcast bias is `bias` with the bias as a row. -/
theorem bias_spec (a : SH.Idx → Elt Ideal .f32) (b : SV.Idx → Elt Ideal .f32) :
    addf (F := Ideal) (s := SH) (φ := .f32) a (val_main_v93 (F := Ideal) b) = bias a (row b) := by
  funext i
  rw [addf_apply, val_main_v93_apply, val_main_v92_apply]
  have e : idx_main_v92 (idx_main_v93 i) = ix1 (i 1) :=
    funext fun a => Fin.ext (by match a with | ⟨0, _⟩ => rfl)
  rw [e]
  rfl

/-- The reference's result, as a function of its six inputs, is the network. -/
theorem ref_value (x0 : SX.Idx → Elt Ideal .f32) (x1 : SE.Idx → Elt Ideal .i32) (x2 : SW1.Idx → Elt Ideal .f32)
    (x3 : SV.Idx → Elt Ideal .f32) (x4 : SW2.Idx → Elt Ideal .f32) (x5 : SV.Idx → Elt Ideal .f32) :
    val_main_v94 (F := Ideal) x0 x1 x2 x3 x4 x5 = gcn x0 x1 x2 x3 x4 x5 := by
  unfold val_main_v94
  rw [val_main_v91_eq]
  unfold val_main_v50 val_main_v49 val_main_v48
  rw [val_main_v45_eq, dot128_spec, biasRelu_spec, dot64_spec, bias_spec]
  rfl

end Cert.ReferenceIdeal.Spec

end
-- ==== Proof.lean ====
/-
  The certificate of a two-layer graph convolution: two dense projections and two bias stages as row-blocked kernels,
  with the neighbourhood aggregation between them on the host, against the same network written with whole-array
  operations.  On the extended reals both compute ONE function `gcn` of the six inputs: a projection block by block is
  the whole projection (a change of float format is the identity, a product into a zero accumulator is the plain sum),
  a bias stage block by block is the whole bias stage, and the aggregation is the same host operations on both sides,
  applied to equal feature matrices and never opened.  No algebraic law beyond that is used, so the precondition is
  never opened.  The three frames are the kernel programs' frames and the reference's run with its result dropped; the
  idealization rewrote nothing.
-/
import proofs.«125809_j9371618640103_1_alg».proof.Defs
import proofs.«125809_j9371618640103_1_alg».proof.Proof.Gen.Kernel
import proofs.«125809_j9371618640103_1_alg».proof.Proof.Gen.Kernel.Frame
import proofs.«125809_j9371618640103_1_alg».proof.Proof.Gen.KernelIdeal
import proofs.«125809_j9371618640103_1_alg».proof.Proof.Gen.KernelIdeal.Frame
import proofs.«125809_j9371618640103_1_alg».proof.Proof.Gen.ReferenceIdeal
import proofs.«125809_j9371618640103_1_alg».proof.Proof.Gen.Pre_finite_inputs
import proofs.«125809_j9371618640103_1_alg».proof.Proof.KernelRun
import proofs.«125809_j9371618640103_1_alg».proof.Proof.KernelValue
import proofs.«125809_j9371618640103_1_alg».proof.Proof.RefRun
import proofs.«125809_j9371618640103_1_alg».proof.Proof.RefRead
import proofs.«125809_j9371618640103_1_alg».proof.Proof.RefSpec
import proofs.«125809_j9371618640103_1_alg».proof.Proof.Agg
import Idealize.ShloMosaic.Adequacy
import Idealize.ShloMosaic.Init

noncomputable section

namespace Cert.Proof

open Idealize.ShloMosaic Idealize.ShloMosaic.TcCoe Idealize.SL.Sem

/-- From memories that agree on the six inputs both idealized programs end with the network `gcn` of those inputs in
    their result buffers, and their arguments unchanged. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Value.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v94_eq, Cert.ReferenceIdeal.Spec.ref_value,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.ValueP.run (F := Ideal) m ρ),
    trivial,
    algebraic⟩

end Cert.Proof

end
